-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S256x1024 : Shape := ⟨2, ![256, 1024]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S512x256 .f32) (main_arg1 : FVec F S256x1024 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== Kernel.lean ====
abbrev S512x256 : Shape := ⟨2, ![512, 256]⟩
abbrev S256x1024 : Shape := ⟨2, ![256, 1024]⟩
abbrev S512x1024 : Shape := ⟨2, ![512, 1024]⟩
abbrev S128x256 : Shape := ⟨2, ![128, 256]⟩
abbrev S128x1024 : Shape := ⟨2, ![128, 1024]⟩
abbrev S128 : Shape := ⟨1, ![128]⟩
abbrev S128x1 : Shape := ⟨2, ![128, 1]⟩
abbrev S1024 : Shape := ⟨1, ![1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x1024, .f32⟩
  | .hbm, ⟨2, _⟩ => ⟨S512x1024, .f32⟩
  | .local _ .vmem, ⟨0, _⟩ => ⟨S128x256, .f32⟩
  | .local _ .vmem, ⟨1, _⟩ => ⟨S128x256, .f32⟩
  | .local _ .vmem, ⟨2, _⟩ => ⟨S256x1024, .f32⟩
  | .local _ .vmem, ⟨3, _⟩ => ⟨S128x1024, .f32⟩
  | .local _ .vmem, ⟨4, _⟩ => ⟨S128x1024, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x256_S128x256_0_0 : ∀ a, (![0, 0] : Fin 2 → Nat) a + S128x256.size a ≤ S128x256.size a
  h_S128x256 : 0 < S128x256.numel
  inb_S256x1024_S256x1024_0_0 : ∀ a, (![0, 0] : Fin 2 → Nat) a + S256x1024.size a ≤ S256x1024.size a
  h_S256x1024 : 0 < S256x1024.numel
  reduces_S128x256_S128 : S128x256.Reduces [1] S128
  shapeCasts_S128_S128x1 : S128.ShapeCasts S128x1
  reduces_S256x1024_S1024 : S256x1024.Reduces [0] S1024
  shapeCasts_S1024_S1x1024 : S1024.ShapeCasts S1x1024
  bitsLt_bf16_f32 : FTy.bits .bf16 < FTy.bits .f32
  broadcasts_S128x1_S128x1024 : S128x1.Broadcasts S128x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  dot_S128x256_S256x1024_S128x1024_1_0_0_1_n_n_wf : DotDims.WF S128x256 S256x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S512x256.size a
  hwx0_0 : ∀ i : grid0.Coords, EltTy.bits .f32 = 32 ∨ (Rect.block (s := S512x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)

variable [Facts₀]

def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x256 : Shape := ⟨2, ![512, 256]⟩
abbrev S256x1024 : Shape := ⟨2, ![256, 1024]⟩
abbrev S512x256x1 : Shape := ⟨3, ![512, 256, 1]⟩
abbrev S1x256x1024 : Shape := ⟨3, ![1, 256, 1024]⟩
abbrev S512x256x1024 : Shape := ⟨3, ![512, 256, 1024]⟩
abbrev S_ : Shape := ⟨0, ![]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x1024, .f32⟩
  | .hbm, ⟨2, _⟩ => ⟨S512x256x1, .f32⟩
  | .hbm, ⟨3, _⟩ => ⟨S1x256x1024, .f32⟩
  | .hbm, ⟨4, _⟩ => ⟨S512x256x1024, .f32⟩
  | .hbm, ⟨5, _⟩ => ⟨S512x256x1024, .f32⟩
  | .hbm, ⟨6, _⟩ => ⟨S512x256x1024, .f32⟩
  | .hbm, ⟨7, _⟩ => ⟨S512x256x1024, .f32⟩
  | .hbm, ⟨8, _⟩ => ⟨S_, .f32⟩
  | .hbm, ⟨9, _⟩ => ⟨S512x1024, .f32⟩
  | .hbm, ⟨10, _⟩ => ⟨S512x1024, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S512x256_S512x256x1_0_1 : S512x256.BroadcastsInDim S512x256x1 (![0, 1] : Fin 2 → Fin S512x256x1.rank)
  bcast_S256x1024_S1x256x1024_1_2 : S256x1024.BroadcastsInDim S1x256x1024 (![1, 2] : Fin 2 → Fin S1x256x1024.rank)
  bcast_S512x256x1_S512x256x1024_0_1_2 : S512x256x1.BroadcastsInDim S512x256x1024 (![0, 1, 2] : Fin 3 → Fin S512x256x1024.rank)
  bcast_S1x256x1024_S512x256x1024_0_1_2 : S1x256x1024.BroadcastsInDim S512x256x1024 (![0, 1, 2] : Fin 3 → Fin S512x256x1024.rank)
  reducesTo_S512x256x1024_S512x1024_d1 : S512x256x1024.ReducesTo [1] S512x1024
  h_S_ : 0 < S_.numel

variable [Facts₀]

class Facts : Prop extends Facts₀ where

variable [Facts]
-- ==== Proof.FiniteEntries.lean ====
/-
  From the precondition to real entries.

  The precondition says, of each argument array, that every entry's absolute value is below `+∞`.  An extended real
  whose absolute value is below `+∞` is neither infinity, so it is a real number.  The two whole-array conjunctions
  (one `and`-reduction per array, joined by one `and`) are opened entry by entry.
-/
import proofs.«162265_j83657372991990_1_alg».proof.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.Distance

open Idealize.ShloMosaic

/-- The single-precision word `0x7F800000` denotes `+∞`. -/
theorem ofBits_inf : Ideal.ofBits .f32 0x7F800000#32 = (⊤ : EReal) := by
  simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- Under the precondition every entry of both argument arrays is a real number. -/
theorem real_of_pre [Cert.Pre_finite_inputs.Facts]
    (a0 : FVec Ideal Cert.Pre_finite_inputs.S512x256 .f32) (a1 : FVec Ideal Cert.Pre_finite_inputs.S256x1024 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h1, h2⟩ := IntOp.andi_eq_one.1 h0
  exact ⟨fun i => real_of_abs_lt_inf (a0 i) (Host.reduce_andi_all _ _ _ _ _ h1 i),
    fun i => real_of_abs_lt_inf (a1 i) (Host.reduce_andi_all _ _ _ _ _ h2 i)⟩

end Cert.Distance

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.LibColumnSum.lean ====
/-
  General lemmas: a sum down the rows of a two-dimensional vector, read at an index, at the ideal instance.

  * a sum over axis 0 of an `[a, b]` vector, at column `c`, is `Σ k, src (k, c)`;
  * that column sum kept as the one row `[1, b]` (a shape cast of `[b]`) and spread over `[r, b]` reads, at `(p, c)`,
    the sum of column `c`, whatever the row `p`.
-/
import Idealize.ShloMosaic.PureOps.Ideal.Laws
import Idealize.ShloMosaic.Lib.ValueIdx
import Idealize.ShloMosaic.Lib.ValueLayout
import Idealize.ShloMosaic.Lib.Pipeline.Value

noncomputable section

namespace Cert.ColumnSum

open Idealize.ShloMosaic Idealize.ShloMosaic.ValueIdx

/-- A sum over the rows (axis 0) of an `[a, b]` vector, read at column `c`: the sum of that column. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  rw [Ideal.multiReduction_add_single]
  refine Finset.sum_congr rfl fun k _ => congrArg src (funext fun ax => Fin.ext ?_)
  match ax with
  | ⟨0, _⟩ => rfl
  | ⟨1, _⟩ => rfl

/-- A column sum kept as one row and spread over `[r, b]`: at `(p, c)` it is the sum of column `c`. -/
theorem colSum_spread_apply {a b r : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hs : (⟨1, ![b]⟩ : Shape).ShapeCasts ⟨2, ![1, b]⟩) (hb : (⟨2, ![1, b]⟩ : Shape).Broadcasts ⟨2, ![r, b]⟩) (p : Fin r) (c : Fin b) :
    broadcastTo ⟨2, ![r, b]⟩ (shapeCast ⟨2, ![1, b]⟩ (multiReduction .add [0] ⟨1, ![b]⟩ src acc h hφ hacc) hs) hb (ix2 p c)
      = ∑ k : Fin a, src (ix2 k c) := by
  rw [broadcastTo_1b_ab_apply, shapeCast_a_1a_apply, colSum_apply]

end Cert.ColumnSum

end
-- ==== Proof.DistanceLaw.lean ====
/-
  The algebra behind a Euclidean distance computed by expanding the square.

  For real rows `f` and `g` over a finite index type,
      Σ (f k - g k)²  =  Σ f k²  +  Σ g k²  -  2 · Σ f k · g k ,
  and the left side is a sum of squares, hence nonnegative, so clamping the right side at zero from below changes
  nothing.  The law moves a factor across a sum and cancels terms, so it is stated for real entries (embedded in the
  extended reals), where distributivity holds; at an infinite entry it would fail.
-/
import Idealize.ShloMosaic.PureOps.Ideal.Laws

noncomputable section

namespace Cert.Distance

open Idealize.ShloMosaic

/-- The single-precision word `0x40000000` denotes the real number 2. -/
theorem ofBits_two : Ideal.ofBits .f32 0x40000000#32 = ((2 : ℝ) : EReal) := by
  simp [Ideal.ofBits, Ideal.ieee, -EReal.coe_mul]; norm_num

/-- Embedding the reals in the extended reals commutes with a finite sum. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Over the reals: the expanded form equals the sum of squared differences. -/
theorem expand_real {ι : Type} [Fintype ι] (f g : ι → ℝ) :
    (∑ k, f k * f k) + (∑ k, g k * g k) - 2 * (∑ k, f k * g k) = ∑ k, (f k - g k) * (f k - g k) := by
  rw [Finset.mul_sum, ← Finset.sum_add_distrib, ← Finset.sum_sub_distrib]
  exact Finset.sum_congr rfl fun k _ => by ring

/-- On the extended reals, for real entries: the squared norms' sum less twice the inner product, clamped at zero
    from below, is the sum of squared differences (started from zero). -/
theorem expand_square {ι : Type} [Fintype ι] (f g : ι → ℝ) :
    max ((((∑ k, ((f k : ℝ) : EReal) * ((f k : ℝ) : EReal)) + (∑ k, ((g k : ℝ) : EReal) * ((g k : ℝ) : EReal)))
        - ((2 : ℝ) : EReal) * (∑ k, ((f k : ℝ) : EReal) * ((g k : ℝ) : EReal)))) 0
      = 0 + ∑ k, (((f k : ℝ) : EReal) - ((g k : ℝ) : EReal)) * (((f k : ℝ) : EReal) - ((g k : ℝ) : EReal)) := by
  simp only [← EReal.coe_mul, ← EReal.coe_sub, coe_sum, ← EReal.coe_add, zero_add]
  rw [expand_real]
  exact max_eq_left (EReal.coe_nonneg.mpr (Finset.sum_nonneg fun k _ => mul_self_nonneg _))

end Cert.Distance

end
-- ==== Proof.DistanceSpec.lean ====
/-
  The result of both programs as one function of the argument arrays.

  `distAt x w p q` is the kernel's arithmetic at output entry `(p, q)`: the squared norm of row `p` of `x` plus the
  squared norm of column `q` of `w`, less twice their inner product, clamped at zero from below, then the square
  root.  For arrays with real entries the clamp is inert and the expression under the root is the sum over `k` of
  `(x (p, k) - w (k, q))²`, which is what the reference computes (starting its sum from zero).
-/
import proofs.«162265_j83657372991990_1_alg».proof.Proof.DistanceLaw
import Idealize.ShloMosaic.Lib.ValueIdx

noncomputable section

namespace Cert.Distance

open Idealize.ShloMosaic Idealize.ShloMosaic.ValueIdx

/-- The distance of row `p` of `x` from column `q` of `w`, in the expanded form the kernel evaluates. -/
def distAt (x : (⟨2, ![512, 256]⟩ : Shape).Idx → EReal) (w : (⟨2, ![256, 1024]⟩ : Shape).Idx → EReal)
    (p : Fin 512) (q : Fin 1024) : EReal :=
  Ideal.sqrt (max (((∑ k : Fin 256, x (ix2 p k) * x (ix2 p k)) + (∑ k : Fin 256, w (ix2 k q) * w (ix2 k q)))
      - Ideal.ofBits .f32 0x40000000#32 * (∑ k : Fin 256, x (ix2 p k) * w (ix2 k q))) (Ideal.ofBits .f32 0x00000000#32))

/-- The whole result array: entry `(p, q)` is `distAt x w p q`. -/
def dist (x : (⟨2, ![512, 256]⟩ : Shape).Idx → EReal) (w : (⟨2, ![256, 1024]⟩ : Shape).Idx → EReal) :
    (⟨2, ![512, 1024]⟩ : Shape).Idx → EReal := fun i => distAt x w (i 0) (i 1)

/-- For real entries the expanded, clamped form is the root of the sum of squared differences. -/
theorem distAt_of_real (x : (⟨2, ![512, 256]⟩ : Shape).Idx → EReal) (w : (⟨2, ![256, 1024]⟩ : Shape).Idx → EReal)
    (hx : ∀ i, ∃ r : ℝ, x i = (r : EReal)) (hw : ∀ i, ∃ r : ℝ, w i = (r : EReal)) (p : Fin 512) (q : Fin 1024) :
    distAt x w p q
      = Ideal.sqrt (Ideal.ofBits .f32 0x00000000#32
          + ∑ k : Fin 256, (x (ix2 p k) - w (ix2 k q)) * (x (ix2 p k) - w (ix2 k q))) := by
  choose f hf using hx
  choose g hg using hw
  unfold distAt
  simp only [hf, hg, ofBits_two, Ideal.ofBits_zero_f32]
  exact congrArg Ideal.sqrt (expand_square (fun k => f (ix2 p k)) (fun k => g (ix2 k q)))

end Cert.Distance

end
-- ==== Proof.KernelEntry.lean ====
/-
  One entry of the block the kernel body stores.

  The body loads a `[128, 256]` block `v0` of `x` and the whole `[256, 1024]` array `v1 = w`.  Entry `(p, q)` of
  what it stores is built from three sums over `k`: the squares along row `p` of `v0` (a lane sum kept as a column and
  spread over the columns), the squares down column `q` of `v1` (a sum over the rows kept as one row and spread
  over the rows), and the products `v0 (p, k) · v1 (k, q)` (the matrix product into a zero accumulator; rounding the
  operands to a narrower format is the identity on the extended reals).  The entry is the root of the first two
  sums' total less twice the third, clamped at zero from below.
-/
import proofs.«162265_j83657372991990_1_alg».proof.Proof.Gen.KernelIdeal.Skeleton
import proofs.«162265_j83657372991990_1_alg».proof.Proof.LibRowOps
import proofs.«162265_j83657372991990_1_alg».proof.Proof.LibColumnSum
import proofs.«162265_j83657372991990_1_alg».proof.Proof.DistanceSpec

noncomputable section

namespace Cert.Distance

open Idealize.ShloMosaic Idealize.ShloMosaic.ValueIdx Idealize.ShloMosaic.TcCoe Cert.KernelIdeal Cert.KernelIdeal.Gen

/-- The stored block at `(p, q)`, from the two loaded vectors. -/
theorem pay_apply (v0 : Vec Ideal S128x256 .f32) (v1 : Vec Ideal S256x1024 .f32) (p : Fin 128) (q : Fin 1024) :
    k0_pay1 (F := Ideal) v0 v1 (ix2 p q)
      = Ideal.sqrt (max (((∑ k : Fin 256, v0 (ix2 p k) * v0 (ix2 p k)) + (∑ k : Fin 256, v1 (ix2 k q) * v1 (ix2 k q)))
          - Ideal.ofBits .f32 0x40000000#32 * (∑ k : Fin 256, v0 (ix2 p k) * v1 (ix2 k q))) (Ideal.ofBits .f32 0x00000000#32)) := by
  have e1 := RowOps.rowSum_spread_apply (mulf (F := Ideal) v0 v0) 0x00000000#32 reduces_S128x256_S128 (.inl rfl) rfl
    shapeCasts_S128_S128x1 broadcasts_S128x1_S128x1024 p q
  have e2 := ColumnSum.colSum_spread_apply (mulf (F := Ideal) v1 v1) 0x00000000#32 reduces_S256x1024_S1024 (.inl rfl) rfl
    shapeCasts_S1024_S1x1024 broadcasts_S1x1024_S128x1024 p q
  have e3 := RowOps.matmul_apply dot_S128x256_S256x1024_S128x1024_1_0_0_1_n_n_wf none
    (truncf (F := Ideal) .bf16 v0 bitsLt_bf16_f32) (truncf (F := Ideal) .bf16 v1 bitsLt_bf16_f32) p q
  exact congrArg Ideal.sqrt (congrArg₂ max (congrArg₂ (· - ·) (congrArg₂ (· + ·) e1 e2)
    (congrArg (Ideal.ofBits .f32 0x40000000#32 * ·) e3)) rfl)

/-- The stored block at `j`, when row `j 0` of the `x` block is row `i 0` of the array `X` and the loaded `w` is the
    array `W`: it is `dist X W` at `i`, provided `i` and `j` name the same column. -/
theorem block_entry (x0 : Vec Ideal S128x256 .f32) (x1 : Vec Ideal S256x1024 .f32)
    (X : (⟨2, ![512, 256]⟩ : Shape).Idx → EReal) (W : (⟨2, ![256, 1024]⟩ : Shape).Idx → EReal)
    (j : S128x1024.Idx) (i : (⟨2, ![512, 1024]⟩ : Shape).Idx)
    (h0 : ∀ k : Fin 256, x0 (ix2 (j 0 : Fin 128) k) = X (ix2 (i 0 : Fin 512) k))
    (h1 : ∀ k : Fin 256, x1 (ix2 k (j 1 : Fin 1024)) = W (ix2 k (i 1 : Fin 1024))) :
    k0_pay1 (F := Ideal) x0 x1 j = dist X W i := by
  refine (congrArg (k0_pay1 (F := Ideal) x0 x1) (eq_ix2 j)).trans ?_
  refine (pay_apply x0 x1 (j 0) (j 1)).trans ?_
  have s1 : (∑ k : Fin 256, x0 (ix2 (j 0 : Fin 128) k) * x0 (ix2 (j 0 : Fin 128) k))
      = ∑ k : Fin 256, X (ix2 (i 0 : Fin 512) k) * X (ix2 (i 0 : Fin 512) k) :=
    Finset.sum_congr rfl fun k _ => by rw [h0 k]
  have s2 : (∑ k : Fin 256, x1 (ix2 k (j 1 : Fin 1024)) * x1 (ix2 k (j 1 : Fin 1024)))
      = ∑ k : Fin 256, W (ix2 k (i 1 : Fin 1024)) * W (ix2 k (i 1 : Fin 1024)) :=
    Finset.sum_congr rfl fun k _ => by rw [h1 k]
  have s3 : (∑ k : Fin 256, x0 (ix2 (j 0 : Fin 128) k) * x1 (ix2 k (j 1 : Fin 1024)))
      = ∑ k : Fin 256, X (ix2 (i 0 : Fin 512) k) * W (ix2 k (i 1 : Fin 1024)) :=
    Finset.sum_congr rfl fun k _ => by rw [h0 k, h1 k]
  exact congrArg Ideal.sqrt (congrArg₂ max (congrArg₂ (· - ·) (congrArg₂ (· + ·) s1 s2)
    (congrArg (Ideal.ofBits .f32 0x40000000#32 * ·) s3)) rfl)

end Cert.Distance

end
-- ==== Proof.KernelDistance.lean ====
/-
  The kernel's result array is `dist` of its arguments.

  The grid has four points; point `t` works on rows `128·t … 128·t + 127` of `x` (all 256 columns), on the whole of
  `w`, and writes rows `128·t … 128·t + 127` of the result (all 1024 columns).  Entry `(r, q)` of the block it
  writes depends on row `r` of its `x` block and column `q` of `w` only, so it is `distAt` at array row
  `128·t + r`.  The four row blocks tile the 512 rows, so the array ends holding `dist` everywhere.
-/
import proofs.«162265_j83657372991990_1_alg».proof.Proof.Gen.KernelIdeal.Value
import proofs.«162265_j83657372991990_1_alg».proof.Proof.KernelEntry
import proofs.«162265_j83657372991990_1_alg».proof.Proof.DistanceSpec

set_option maxRecDepth 16384

noncomputable section

namespace Cert.Distance.Kernel

open Cert.KernelIdeal Cert.KernelIdeal.Gen Cert.KernelIdeal.Value
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index maps over the grid: the `x` window moves with the result window along the rows and stays at
    column block 0; the `w` window stays at block (0, 0); the result window stays at column block 0 and its row
    block index is at most 3. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every row block of the result is some point's. -/
theorem row_block_onto : ∀ q0 : Fin 4, ∃ t : Fin cfg0.N, win0_2.index t = ![q0.val, 0] :=
  (by decide +kernel : ∀ q0 : Fin 4, ∃ t : Fin grid0.N, win0_2.index t = ![q0.val, 0])

/-- What point `t` writes back is block `t` of `dist` of the argument arrays. -/
theorem flushed_eq (c : Dev nD) (t : Fin cfg0.N) :
    (dats m 0 c).flushed 2 t
      = ((cfg0.win 2).blk t).view.read (Elt Ideal) (dist (V m c main_arg0) (V m c main_arg1)) := by
  rw [flushed2]
  unfold out0_2
  rw [View.canon_unit_zero zero_offsets]
  simp only [View.ld_unit_zero (S := S128x256) zero_offsets, View.ld_unit_zero (S := S256x1024) zero_offsets]
  obtain ⟨e0, e1, e2, e3, e4, e5⟩ := block_indices t
  funext j
  refine block_entry (iblk m c 0 t) (iblk m c 1 t) (V m c main_arg0) (V m c main_arg1) j
    (((cfg0.win 2).blk t).view.emb j) (fun k => ?_) (fun k => ?_)
  · show V m c main_arg0 (((cfg0.win 0).blk t).view.emb (ix2 (j 0 : Fin 128) k)) = _
    refine congrArg (V m c main_arg0) (funext fun a => Fin.ext ?_)
    match a with
    | ⟨0, _⟩ =>
      show win0_0.index t (0 : Fin 2) * 128 + 1 * (j 0).val = win0_2.index t (0 : Fin 2) * 128 + 1 * (j 0).val
      omega
    | ⟨1, _⟩ =>
      show win0_0.index t (1 : Fin 2) * 256 + 1 * k.val = k.val
      omega
  · show V m c main_arg1 (((cfg0.win 1).blk t).view.emb (ix2 k (j 1 : Fin 1024))) = _
    refine congrArg (V m c main_arg1) (funext fun a => Fin.ext ?_)
    match a with
    | ⟨0, _⟩ =>
      show win0_1.index t (0 : Fin 2) * 256 + 1 * k.val = k.val
      omega
    | ⟨1, _⟩ =>
      show win0_1.index t (1 : Fin 2) * 1024 + 1 * (j 1).val = win0_2.index t (1 : Fin 2) * 1024 + 1 * (j 1).val
      omega

/-- An index of the result array is in point `t`'s block iff each coordinate is in the block's range on its axis. -/
theorem mem_block (t : Fin cfg0.N) (i : S512x1024.Idx) :
    i ∈ ((cfg0.win 2).blk t).view.set ↔ ∀ a : Fin 2, win0_2.index t a * S128x1024.size a ≤ (i a).val
      ∧ (i a).val < win0_2.index t a * S128x1024.size a + S128x1024.size a := by
  show i ∈ ((View.whole main_v0).slice (win0_2.rect t)).set ↔ _
  rw [View.set_slice_whole, Rect.mem_set_unit]
  exact Iff.rfl

/-- Every index of the result array is in the block of the point that owns its row. -/
theorem covered (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  obtain ⟨t, ht⟩ := row_block_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 1024 ≤ (i 1).val ∧ (i 1).val < win0_2.index t (1 : Fin 2) * 1024 + 1024
    omega

/-- The result array after the run is `dist` of the arguments as launched. -/
theorem final (c : Dev nD) :
    (dats m 0 c).arrAt 2 cfg0.N = dist (m ((c : Thread nD τ).loc main_arg0)) (m ((c : Thread nD τ).loc main_arg1)) :=
  (dats m 0 c).arrAt_eq_of_cover 2 (dist (V m c main_arg0) (V m c main_arg1)) (fun t _ => flushed_eq m c t) covered

/-- Every weakly fair execution of the kernel program terminates with the result array at `dist` of the arguments
    and the arguments unchanged. -/
theorem run : θ_run defs (onTc (τ := τ) (main (F := Ideal))) ⟨m, fun _ => 0, ρ⟩ fun r => ∀ c : Dev nD,
      r.2.mem ((c : Thread nD τ).loc main_v0) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Distance.Kernel

end
-- ==== Proof.ReferenceDistance.lean ====
/-
  The reference's result is `dist` of its arguments, for real entries.

  Read at an index `i = (p, q)`, the reference spreads `x` along a new last axis and `w` along a new first axis,
  subtracts, squares, sums over the middle axis from zero and takes the root: the entry it reads of `x` for the
  summation index `k` is `(p, k)`, of `w` it is `(k, q)`.  That root of a sum of squared differences is `distAt`
  by the expansion of the square.
-/
import proofs.«162265_j83657372991990_1_alg».proof.Proof.Gen.ReferenceIdeal.Read
import proofs.«162265_j83657372991990_1_alg».proof.Proof.DistanceSpec

noncomputable section

namespace Cert.Distance.Reference

open Cert.ReferenceIdeal Cert.ReferenceIdeal.Gen Cert.ReferenceIdeal.Read
open Idealize.ShloMosaic Idealize.ShloMosaic.ValueIdx Idealize.ShloMosaic.TcCoe

/-- Through the two spreads and the sum's inserted coordinate, `x` is read at row `p`, column `k`. -/
theorem row_index (i : S512x1024.Idx) (k : Fin 256) :
    idx_main_v0 (idx_main_v2 (idx_main_v6 i k)) = ix2 (i 0 : Fin 512) k :=
  funext fun a => Fin.ext (by match a with | ⟨0, _⟩ => rfl | ⟨1, _⟩ => rfl)

/-- Through the two spreads and the sum's inserted coordinate, `w` is read at row `k`, column `q`. -/
theorem col_index (i : S512x1024.Idx) (k : Fin 256) :
    idx_main_v1 (idx_main_v3 (idx_main_v6 i k)) = ix2 k (i 1 : Fin 1024) :=
  funext fun a => Fin.ext (by match a with | ⟨0, _⟩ => rfl | ⟨1, _⟩ => rfl)

/-- The reference's last stage is `dist` of the arguments when their entries are real. -/
theorem reference_eq (x0 : (⟨S512x256, .f32⟩ : BufTy).Contents (Elt Ideal)) (x1 : (⟨S256x1024, .f32⟩ : BufTy).Contents (Elt Ideal))
    (hx : ∀ i, ∃ r : ℝ, x0 i = (r : EReal)) (hw : ∀ i, ∃ r : ℝ, x1 i = (r : EReal)) :
    val_main_v7 (F := Ideal) x0 x1 = dist x0 x1 := by
  funext i
  rw [val_main_v7_apply, val_main_v6_apply]
  simp only [val_main_v5_apply, val_main_v4_apply, val_main_v2_apply, val_main_v0_apply, val_main_v3_apply,
    val_main_v1_apply, val_main_cst_apply, row_index, col_index, Ideal.hostUnary_sqrt_def, Ideal.mulf_def,
    Ideal.subf_def, Ideal.ofBits_def]
  exact (distAt_of_real x0 x1 hx hw (i 0) (i 1)).symm

end Cert.Distance.Reference

end
-- ==== Proof.lean ====
/-
  Pairwise Euclidean distance, `out (b, o) = ‖x (b, ·) − w (·, o)‖₂`, two ways.

  The kernel expands the square: per block of 128 rows it forms the rows' squared norms, the columns' squared norms
  and the matrix product `x · w`, combines them as `‖x‖² + ‖w‖² − 2 x·w`, clamps at zero from below and takes the
  root.  The reference subtracts entry by entry, squares, sums over the shared axis and takes the root.  On the
  extended reals the two agree where distributivity holds, that is for real entries, which the precondition gives:
  `Σ (x − w)² = Σ x² + Σ w² − 2 Σ x w`, and a sum of squares is nonnegative, so the clamp does nothing.

  The modules: `DistanceLaw` (the identity over the reals and on the extended reals), `DistanceSpec` (both results
  as the one function `dist`), `FiniteEntries` (the precondition gives real entries), `KernelEntry` (one entry of
  the block the body stores), `KernelDistance` (the blocks tile the result array, which therefore ends at `dist`),
  `ReferenceDistance` (the reference's result is `dist`), and two files of general lemmas on row and column sums.
  The three frame claims are the generated frames and the reference's generated run; no rewrite separates the
  kernel from its idealization, so that claim is trivial.
-/
import proofs.«162265_j83657372991990_1_alg».proof.Defs
import proofs.«162265_j83657372991990_1_alg».proof.Proof.Gen.Kernel
import proofs.«162265_j83657372991990_1_alg».proof.Proof.Gen.Kernel.Skeleton
import proofs.«162265_j83657372991990_1_alg».proof.Proof.Gen.Kernel.Launch
import proofs.«162265_j83657372991990_1_alg».proof.Proof.Gen.Kernel.Points
import proofs.«162265_j83657372991990_1_alg».proof.Proof.Gen.Kernel.Frame
import proofs.«162265_j83657372991990_1_alg».proof.Proof.Gen.KernelIdeal
import proofs.«162265_j83657372991990_1_alg».proof.Proof.Gen.KernelIdeal.Skeleton
import proofs.«162265_j83657372991990_1_alg».proof.Proof.Gen.KernelIdeal.Launch
import proofs.«162265_j83657372991990_1_alg».proof.Proof.Gen.KernelIdeal.Points
import proofs.«162265_j83657372991990_1_alg».proof.Proof.Gen.KernelIdeal.Frame
import proofs.«162265_j83657372991990_1_alg».proof.Proof.Gen.ReferenceIdeal
import proofs.«162265_j83657372991990_1_alg».proof.Proof.Gen.Pre_finite_inputs
import proofs.«162265_j83657372991990_1_alg».proof.Proof.Gen.KernelIdeal.Value
import proofs.«162265_j83657372991990_1_alg».proof.Proof.Gen.ReferenceIdeal.Run
import proofs.«162265_j83657372991990_1_alg».proof.Proof.Gen.ReferenceIdeal.Read
import proofs.«162265_j83657372991990_1_alg».proof.Proof.FiniteEntries
import proofs.«162265_j83657372991990_1_alg».proof.Proof.KernelDistance
import proofs.«162265_j83657372991990_1_alg».proof.Proof.ReferenceDistance
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on `x` and `w`, both with real entries, the kernel's result array and the reference's
    both end at `dist x w`: the kernel's by tiling the array with its row blocks, the reference's by expanding the
    square under the root. -/
theorem algebraic : Cert.algebraic_KernelIdeal_ReferenceIdeal := by
  intro m ρ m' ρ' hpre hagree
  refine ⟨_, Cert.Distance.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Distance.real_of_pre _ _ (hpre c)
  rw [(hagree c).1, (hagree c).2]
  exact (Cert.ReferenceIdeal.Read.val_main_v7_eq _ _).trans (Cert.Distance.Reference.reference_eq _ _ hx hw)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
